-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4x256x512 : Shape := ⟨3, ![4, 256, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x256x512 : S_.BroadcastsInDim S4x256x512 (![] : Fin 0 → Fin S4x256x512.rank)
  reducesTo_S4x256x512_S_d0_1_2 : S4x256x512.ReducesTo [0, 1, 2] S_

variable [Facts]

def fn {F : FTy → Type} [FloatOps F] (main_arg0 : FVec F S16384x512 .f32) (main_arg1 : FVec F S4x256x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4x256x512 .f32 := Host.absf main_arg1
  let main_cst_0 : FVec F S_ .f32 := constant S_ .f32 0x7F800000#32
  let main_v5 : FVec F S4x256x512 .f32 := broadcastInDim S4x256x512 ![] bcast_S_S4x256x512 main_cst_0
  let main_v6 : IVec S4x256x512 1 := cmpf .olt main_v4 main_v5
  let main_c_1 : IVec S_ 1 := constantI S_ 1 1#1
  let main_v7 : IVec S_ 1 := (fun x v => Host.reduce IntOp.andi x v reducesTo_S4x256x512_S_d0_1_2 h_S_) main_v6 main_c_1
  let main_v8 : IVec S_ 1 := andi main_v3 main_v7
  main_v8
-- ==== Kernel.lean ====
abbrev S16384x512 : Shape := ⟨2, ![16384, 512]⟩
abbrev S4x256x512 : Shape := ⟨3, ![4, 256, 512]⟩
abbrev S4x16384x256 : Shape := ⟨3, ![4, 16384, 256]⟩
abbrev S4096x512 : Shape := ⟨2, ![4096, 512]⟩
abbrev S1x256x512 : Shape := ⟨3, ![1, 256, 512]⟩
abbrev S1x4096x256 : Shape := ⟨3, ![1, 4096, 256]⟩
abbrev S256x512 : Shape := ⟨2, ![256, 512]⟩
abbrev S4096x256 : Shape := ⟨2, ![4096, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S4x256x512, .f32⟩
  | .hbm, ⟨2, _⟩ => ⟨S4x16384x256, .f32⟩
  | .local _ .vmem, ⟨0, _⟩ => ⟨S4096x512, .f32⟩
  | .local _ .vmem, ⟨1, _⟩ => ⟨S4096x512, .f32⟩
  | .local _ .vmem, ⟨2, _⟩ => ⟨S1x256x512, .f32⟩
  | .local _ .vmem, ⟨3, _⟩ => ⟨S1x256x512, .f32⟩
  | .local _ .vmem, ⟨4, _⟩ => ⟨S1x4096x256, .f32⟩
  | .local _ .vmem, ⟨5, _⟩ => ⟨S1x4096x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S4096x512_S4096x512_0_0 : ∀ a, (![0, 0] : Fin 2 → Nat) a + S4096x512.size a ≤ S4096x512.size a
  h_S4096x512 : 0 < S4096x512.numel
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  shapeCasts_S4096x256_S1x4096x256 : S4096x256.ShapeCasts S1x4096x256
  dot_S4096x512_S256x512_S4096x256_1_1_0_0_n_n_wf : DotDims.WF S4096x512 S256x512 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S16384x512.size a
  hwx0_0 : ∀ i : grid0.Coords, EltTy.bits .f32 = 32 ∨ (Rect.block (s := S16384x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S4x256x512.size a
  hwx0_1 : ∀ i : grid0.Coords, EltTy.bits .f32 = 32 ∨ (Rect.block (s := S4x256x512) S1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S4x16384x256.size a
  hwx0_2 : ∀ i : grid0.Coords, EltTy.bits .f32 = 32 ∨ (Rect.block (s := S4x16384x256) S1x4096x256.size (cc0_transform_2 i) (hinb0_2 i)).WholeWords (EltTy.packing .f32)

variable [Facts₀]

def dot_S4096x512_S256x512_S4096x256_1_1_0_0_n_n : DotDims S4096x512 S256x512 S4096x256 where
  lhsContracting := [1]
  rhsContracting := [1]
  lhsNonContracting := [0]
  rhsNonContracting := [0]
  lhsBatch := []
  rhsBatch := []
  wf := dot_S4096x512_S256x512_S4096x256_1_1_0_0_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x512 : Shape := ⟨2, ![16384, 512]⟩
abbrev S4x256x512 : Shape := ⟨3, ![4, 256, 512]⟩
abbrev S4x256x16384 : Shape := ⟨3, ![4, 256, 16384]⟩
abbrev S4x16384x256 : Shape := ⟨3, ![4, 16384, 256]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4x256x512, .f32⟩
  | .hbm, ⟨2, _⟩ => ⟨S4x256x16384, .f32⟩
  | .hbm, ⟨3, _⟩ => ⟨S4x16384x256, .f32⟩
  | .hbm, ⟨4, _⟩ => ⟨S_, .f32⟩
  | .hbm, ⟨5, _⟩ => ⟨S4x16384x256, .f32⟩
  | .hbm, ⟨6, _⟩ => ⟨S4x16384x256, .i1⟩
  | .hbm, ⟨7, _⟩ => ⟨S_, .f32⟩
  | .hbm, ⟨8, _⟩ => ⟨S_, .f32⟩
  | .hbm, ⟨9, _⟩ => ⟨S4x16384x256, .f32⟩
  | .hbm, ⟨10, _⟩ => ⟨S4x16384x256, .f32⟩
  | .hbm, ⟨11, _⟩ => ⟨S4x16384x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩

abbrev nD : Nat := 1
abbrev τ : Topo := Topo.v7x

variable {F : FTy → Type} [FloatOps F]

class Facts₀ : Prop where
  transposes_S4x256x16384_S4x16384x256_0_2_1 : S4x256x16384.Transposes [0, 2, 1] S4x16384x256
  bcast_S_S4x16384x256 : S_.BroadcastsInDim S4x16384x256 (![] : Fin 0 → Fin S4x16384x256.rank)
  dot_S4x256x512_S16384x512_S4x256x16384_2_1_01_0_n_n_wf : DotDims.WF S4x256x512 S16384x512 S4x256x16384 [2] [1] [0, 1] [0] [] []

variable [Facts₀]

def dot_S4x256x512_S16384x512_S4x256x16384_2_1_01_0_n_n : DotDims S4x256x512 S16384x512 S4x256x16384 where
  lhsContracting := [2]
  rhsContracting := [1]
  lhsNonContracting := [0, 1]
  rhsNonContracting := [0]
  lhsBatch := []
  rhsBatch := []
  wf := dot_S4x256x512_S16384x512_S4x256x16384_2_1_01_0_n_n_wf

class Facts : Prop extends Facts₀ where

variable [Facts]
-- ==== Proof.Codes.lean ====
/-
  Locality-sensitive hashing by random hyperplanes, as one function of the two argument arrays.

  The points are the rows of `x : [16384, 512]`; the hyperplanes are the rows of the four tables
  `p : [4, 256, 512]`. The code of point `n` against plane `h` of table `t` records on which side of
  the plane the point lies: with `s = ∑ k, x[n, k] · p[t, h, k]` the inner product over the 512
  coordinates, the code is `0` when `s < 0` and `1` otherwise. Over the extended reals the sum is the
  plain finite sum and the comparison is the order's; the two literals are kept as their words, the
  same words on the kernel's side and on the reference's.
-/
import Idealize.ShloMosaic.PureOps.Ideal
import Idealize.ShloMosaic.Lib.ValueIdx

noncomputable section

namespace Cert.Lsh

open Idealize.ShloMosaic Idealize.ShloMosaic.ValueIdx

/-- The inner product of point `n` with plane `h` of table `t`, over the 512 coordinates. -/
def inner (x : Vec Ideal ⟨2, ![16384, 512]⟩ .f32) (p : Vec Ideal ⟨3, ![4, 256, 512]⟩ .f32)
    (t : Fin 4) (n : Fin 16384) (h : Fin 256) : Elt Ideal .f32 :=
  ∑ k : Fin 512, x (ix2 n k) * p (ix3 t h k)

/-- The side of a plane as a code: `0` for a negative inner product, `1` otherwise. -/
def side (s : Elt Ideal .f32) : Elt Ideal .f32 :=
  Scalar.select (FloatOps.cmpf (F := Ideal) .olt s (FloatOps.ofBits .f32 0x00000000#32))
    (FloatOps.ofBits (F := Ideal) .f32 0x00000000#32) (FloatOps.ofBits (F := Ideal) .f32 0x3F800000#32)

/-- The whole array of codes, laid out table by table, point by point, plane by plane. -/
def codes (x : Vec Ideal ⟨2, ![16384, 512]⟩ .f32) (p : Vec Ideal ⟨3, ![4, 256, 512]⟩ .f32) :
    Vec Ideal ⟨3, ![4, 16384, 256]⟩ .f32 :=
  fun i => side (inner x p (i 0) (i 1) (i 2))

end Cert.Lsh

end
-- ==== Proof.Tile.lean ====
/-
  One grid step of the kernel, read at an index.

  A step holds a block of 4096 points `a : [4096, 512]` and one table of planes `b : [1, 256, 512]`.
  It drops the table's unit axis, contracts the points' coordinates against the planes' coordinates
  into a zero accumulator — entry `(r, h)` of the product is `∑ k, a[r, k] · b[0, h, k]` —, compares
  each entry with zero, selects `0` where it is negative and `1` elsewhere, and puts the unit axis
  back. So entry `(0, r, h)` of what the step stores is the side of plane `h` on which point `r` of
  the block lies.
-/
import proofs.«105339_g42193758716157_cont_8to1_b_654_12_alg».proof.Proof.Gen.KernelIdeal.Skeleton
import proofs.«105339_g42193758716157_cont_8to1_b_654_12_alg».proof.Proof.Codes
import Idealize.ShloMosaic.Lib.ValueIdx
import Idealize.ShloMosaic.Lib.Pipeline.Value
import Idealize.ShloMosaic.PureOps.Ideal.Laws

noncomputable section

namespace Cert.Lsh

open Idealize.ShloMosaic Idealize.ShloMosaic.ValueIdx
open Cert.KernelIdeal Cert.KernelIdeal.Gen

/-! ## The contraction's operand indices, axis by axis -/

theorem points_axis0 (i : S4096x256.Idx) (q : dot_S4096x512_S256x512_S4096x256_1_1_0_0_n_n.contr.Idx) :
    (dot_S4096x512_S256x512_S4096x256_1_1_0_0_n_n.lhsIdx i q 0).val = (i 0).val := by
  unfold DotDims.lhsIdx
  rw [dif_neg (show ¬(0 : Fin S4096x512.rank) ∈ dot_S4096x512_S256x512_S4096x256_1_1_0_0_n_n.lhsBatch by decide), dif_pos (show (0 : Fin S4096x512.rank) ∈ dot_S4096x512_S256x512_S4096x256_1_1_0_0_n_n.lhsNonContracting by decide)]
  rfl
theorem points_axis1 (i : S4096x256.Idx) (q : dot_S4096x512_S256x512_S4096x256_1_1_0_0_n_n.contr.Idx) :
    (dot_S4096x512_S256x512_S4096x256_1_1_0_0_n_n.lhsIdx i q 1).val = (q ⟨0, by decide⟩).val :=
  dot_S4096x512_S256x512_S4096x256_1_1_0_0_n_n.lhsIdx_val_of_single rfl i q
theorem planes_axis0 (i : S4096x256.Idx) (q : dot_S4096x512_S256x512_S4096x256_1_1_0_0_n_n.contr.Idx) :
    (dot_S4096x512_S256x512_S4096x256_1_1_0_0_n_n.rhsIdx i q 0).val = (i 1).val := by
  unfold DotDims.rhsIdx
  rw [dif_neg (show ¬(0 : Fin S256x512.rank) ∈ dot_S4096x512_S256x512_S4096x256_1_1_0_0_n_n.rhsBatch by decide), dif_pos (show (0 : Fin S256x512.rank) ∈ dot_S4096x512_S256x512_S4096x256_1_1_0_0_n_n.rhsNonContracting by decide)]
  rfl
theorem planes_axis1 (i : S4096x256.Idx) (q : dot_S4096x512_S256x512_S4096x256_1_1_0_0_n_n.contr.Idx) :
    (dot_S4096x512_S256x512_S4096x256_1_1_0_0_n_n.rhsIdx i q 1).val = (q ⟨0, by decide⟩).val :=
  dot_S4096x512_S256x512_S4096x256_1_1_0_0_n_n.rhsIdx_val_of_single rfl i q

/-! ## The product into a zero accumulator -/

/-- Entry `(r, h)` of the block's product with the planes: the inner product of row `r` of the points
    with row `h` of the planes, over the 512 coordinates. -/
theorem product_apply (a : FVec Ideal S4096x512 .f32) (b : FVec Ideal S256x512 .f32) (r : Fin 4096) (h : Fin 256) :
    matmul dot_S4096x512_S256x512_S4096x256_1_1_0_0_n_n none a b (constant S4096x256 .f32 0x00000000#32) (ix2 r h)
      = ∑ k : Fin 512, a (ix2 r k) * b (ix2 h k) := by
  show FloatOps.matmul dot_S4096x512_S256x512_S4096x256_1_1_0_0_n_n none a b (constant S4096x256 .f32 0x00000000#32) (ix2 r h) = _
  rw [Ideal.matmul_constant_zero_apply, ← Equiv.sum_comp (contrEquiv1 dot_S4096x512_S256x512_S4096x256_1_1_0_0_n_n 512 rfl rfl).symm]
  refine Finset.sum_congr rfl fun k _ => ?_
  have hk := contrEquiv1_symm_val dot_S4096x512_S256x512_S4096x256_1_1_0_0_n_n 512 rfl rfl k
  have el : dot_S4096x512_S256x512_S4096x256_1_1_0_0_n_n.lhsIdx (ix2 r h) ((contrEquiv1 dot_S4096x512_S256x512_S4096x256_1_1_0_0_n_n 512 rfl rfl).symm k) = ix2 r k := funext fun a => Fin.ext (by
    match a with
    | ⟨0, _⟩ => exact points_axis0 _ _
    | ⟨1, _⟩ => exact (points_axis1 _ _).trans hk)
  have er : dot_S4096x512_S256x512_S4096x256_1_1_0_0_n_n.rhsIdx (ix2 r h) ((contrEquiv1 dot_S4096x512_S256x512_S4096x256_1_1_0_0_n_n 512 rfl rfl).symm k) = ix2 h k := funext fun a => Fin.ext (by
    match a with
    | ⟨0, _⟩ => exact planes_axis0 _ _
    | ⟨1, _⟩ => exact (planes_axis1 _ _).trans hk)
  rw [el, er]

/-! ## The step's stored value -/

/-- Dropping the planes' unit axis reads row `(0, h)`. -/
theorem planes_row (b : Vec Ideal S1x256x512 .f32) (h : Fin 256) (k : Fin 512) :
    shapeCast S256x512 b shapeCasts_S1x256x512_S256x512 (ix2 h k) = b (ix3 0 h k) := by
  refine (shapeCast_dropUnit_apply ![256, 512] b shapeCasts_S1x256x512_S256x512 (ix2 h k)).trans (congrArg b ?_)
  funext a
  match a with
  | ⟨0, _⟩ => rfl
  | ⟨1, _⟩ => rfl
  | ⟨2, _⟩ => rfl

/-- Entry `(z, r, h)` of what a step stores is the side of the inner product of point `r` of its block
    with plane `h` of its table. -/
theorem step_apply (a : Vec Ideal S4096x512 .f32) (b : Vec Ideal S1x256x512 .f32) (z : Fin 1) (r : Fin 4096) (h : Fin 256) :
    k0_pay1 (F := Ideal) a b (ix3 z r h) = side (∑ k : Fin 512, a (ix2 r k) * b (ix3 0 h k)) := by
  unfold k0_pay1
  rw [shapeCast_addUnit_apply]
  have e : (fun c : Fin 2 => (ix3 z r h : S1x4096x256.Idx) c.succ) = (ix2 r h : S4096x256.Idx) :=
    funext fun c => by match c with | ⟨0, _⟩ => rfl | ⟨1, _⟩ => rfl
  rw [e]
  show side (matmul (F := Ideal) dot_S4096x512_S256x512_S4096x256_1_1_0_0_n_n none a (shapeCast S256x512 b shapeCasts_S1x256x512_S256x512) (constant (F := Ideal) S4096x256 .f32 0x00000000#32) (ix2 r h)) = _
  rw [product_apply]
  exact congrArg side (Finset.sum_congr rfl fun k _ => by rw [planes_row])

end Cert.Lsh

end
-- ==== Proof.KernelCodes.lean ====
/-
  The kernel's output array is the array of codes.

  The grid has 4 × 4 steps. Step `(g, t)` holds points `4096·g … 4096·g + 4095` and table `t`, and
  writes its tile back as block `(t, g, 0)` of the output `[4, 16384, 256]`, a block being
  `[1, 4096, 256]`. An output index `(t, n, h)` inside that block has `n = 4096·g + r`, and the tile's
  entry `(0, r, h)` is the side of the inner product of row `r` of the step's points — row `n` of all
  the points — with row `(0, h)` of the step's planes — row `(t, h)` of all the planes. So every step
  writes a block of the one array of codes, and the 16 blocks tile the output: point `n` of table `t`
  lies in the block of step `(n / 4096, t)`.
-/
import proofs.«105339_g42193758716157_cont_8to1_b_654_12_alg».proof.Proof.Gen.KernelIdeal.Value
import proofs.«105339_g42193758716157_cont_8to1_b_654_12_alg».proof.Proof.Tile
import proofs.«105339_g42193758716157_cont_8to1_b_654_12_alg».proof.Proof.Codes
import Idealize.ShloMosaic.Lib.ValueIdx
import Idealize.ShloMosaic.Lib.Pipeline.Value

noncomputable section

namespace Cert.Lsh

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-! ## A step's tile against the codes, over plain arrays -/

/-- If row `j 1` of a step's points is row `i 1` of all the points, and row `(0, j 2)` of its planes
    is row `(i 0, i 2)` of all the planes, the tile's entry `j` is the code at `i`. -/
theorem tile_is_code (X : Vec Ideal S16384x512 .f32) (Pl : Vec Ideal S4x256x512 .f32)
    (a : Vec Ideal S4096x512 .f32) (b : Vec Ideal S1x256x512 .f32) (j : S1x4096x256.Idx) (i : S4x16384x256.Idx)
    (ha : ∀ k : Fin 512, a (ix2 (j 1) k) = X (ix2 (i 1) k))
    (hb : ∀ k : Fin 512, b (ix3 0 (j 2) k) = Pl (ix3 (i 0) (i 2) k)) :
    k0_pay1 (F := Ideal) a b j = codes X Pl i := by
  obtain ⟨z, r, h, rfl⟩ : ∃ (z : Fin 1) (r : Fin 4096) (h : Fin 256), j = ix3 z r h := ⟨j 0, j 1, j 2, eq_ix3 j⟩
  rw [step_apply]
  exact congrArg side (Finset.sum_congr rfl fun k _ => by rw [ha k, hb k])

/-! ## The index maps, decided over the 16 steps -/

/-- The points' block moves with the output's second block coordinate, the planes' with its first;
    every other block coordinate is zero, and the two moving ones stay below 4. -/
theorem block_indices : ∀ t : Fin cfg0.N,
    win0_0.index t (0 : Fin 2) = win0_2.index t (1 : Fin 3)
    ∧ win0_0.index t (1 : Fin 2) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 3
    ∧ win0_2.index t (1 : Fin 3) ≤ 3
    ∧ win0_2.index t (2 : Fin 3) = 0 :=
  (by decide +kernel : ∀ t : Fin grid0.N, _)

/-- Every block `(t, g, 0)` of the output is some step's. -/
theorem block_onto : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

/-! ## What a step writes back -/

/-- Step `t` writes back block `t` of the codes of the argument arrays. -/
theorem step_writes (c : Dev nD) (t : Fin cfg0.N) :
    (dats m 0 c).flushed 2 t = ((cfg0.win 2).blk t).view.read (Elt Ideal) (codes (V m c main_arg0) (V m c main_arg1)) := by
  rw [Cert.KernelIdeal.Value.flushed2]
  unfold out0_2
  rw [View.canon_unit_zero origin3]
  simp only [View.ld_unit_zero (S := S4096x512) origin2, View.ld_unit_zero (S := S1x256x512) origin3]
  obtain ⟨e0, e1, e2, e3, e4, e5, e6, e7⟩ := block_indices t
  funext j
  refine tile_is_code (V m c main_arg0) (V m c main_arg1) (iblk m c 0 t) (iblk m c 1 t) j (((cfg0.win 2).blk t).view.emb j) ?_ ?_
  · intro k
    show V m c main_arg0 (((cfg0.win 0).blk t).view.emb (ix2 (j 1) k)) = _
    refine congrArg (V m c main_arg0) (funext fun a => Fin.ext ?_)
    match a with
    | ⟨0, _⟩ => show win0_0.index t (0 : Fin 2) * 4096 + 1 * (j 1).val = win0_2.index t (1 : Fin 3) * 4096 + 1 * (j 1).val; omega
    | ⟨1, _⟩ => show win0_0.index t (1 : Fin 2) * 512 + 1 * k.val = k.val; omega
  · intro k
    show V m c main_arg1 (((cfg0.win 1).blk t).view.emb (ix3 0 (j 2) k)) = _
    refine congrArg (V m c main_arg1) (funext fun a => Fin.ext ?_)
    match a with
    | ⟨0, _⟩ => show win0_1.index t (0 : Fin 3) * 1 + 1 * 0 = win0_2.index t (0 : Fin 3) * 1 + 1 * (j 0).val; have hj : (j 0).val < 1 := (j 0).isLt; omega
    | ⟨1, _⟩ => show win0_1.index t (1 : Fin 3) * 256 + 1 * (j 2).val = win0_2.index t (2 : Fin 3) * 256 + 1 * (j 2).val; omega
    | ⟨2, _⟩ => show win0_1.index t (2 : Fin 3) * 512 + 1 * k.val = k.val; omega

/-! ## The blocks tile the output -/

/-- An output index is in step `t`'s block iff each coordinate is in the block's range on its axis. -/
theorem mem_block (t : Fin cfg0.N) (i : S4x16384x256.Idx) :
    i ∈ ((cfg0.win 2).blk t).view.set ↔ ∀ a : Fin 3, win0_2.index t a * S1x4096x256.size a ≤ (i a).val ∧ (i a).val < win0_2.index t a * S1x4096x256.size a + S1x4096x256.size a := by
  show i ∈ ((View.whole main_v0).slice (win0_2.rect t)).set ↔ _
  rw [View.set_slice_whole, Rect.mem_set_unit]
  exact Iff.rfl

/-- Every output index `(t, n, h)` is in the block of the step at `(t, n / 4096, 0)`. -/
theorem blocks_cover (i : S4x16384x256.Idx) :
    ∃ t : Fin cfg0.N, (cfg0.win 2).flush t = true ∧ i ∈ ((cfg0.win 2).blk t).view.set := by
  have hi0 : (i 0).val < 4 := (i 0).isLt
  have hi1 : (i 1).val < 16384 := (i 1).isLt
  have hi2 : (i 2).val < 256 := (i 2).isLt
  obtain ⟨t, ht⟩ := block_onto ⟨(i 0).val, hi0⟩ ⟨(i 1).val / 4096, by omega⟩
  have q0 : win0_2.index t (0 : Fin 3) = (i 0).val := congrFun ht 0
  have q1 : win0_2.index t (1 : Fin 3) = (i 1).val / 4096 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 256 ≤ (i 2).val ∧ (i 2).val < win0_2.index t (2 : Fin 3) * 256 + 256; omega

/-! ## The output array, and the run -/

/-- After the last step the output array holds the codes of the argument arrays. -/
theorem output_codes (c : Dev nD) :
    (dats m 0 c).arrAt 2 cfg0.N = codes (V m c main_arg0) (V m c main_arg1) :=
  (dats m 0 c).arrAt_eq_of_cover 2 (codes (V m c main_arg0) (V m c main_arg1)) (fun t _ => step_writes m c t) blocks_cover

/-- Every weakly fair execution of the kernel terminates with the output at the codes of the argument
    arrays as launched, and the arguments unchanged. -/
theorem kernel_run : θ_run defs (onTc (τ := τ) (main (F := Ideal))) ⟨m, fun _ => 0, ρ⟩ fun r => ∀ c : Dev nD,
      r.2.mem ((c : Thread nD τ).loc main_v0) = codes (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (output_codes m c), (h c).2⟩)
    (Cert.KernelIdeal.Value.run_blocks m ρ)

end Cert.Lsh

end
-- ==== Proof.RefCodes.lean ====
/-
  The reference computes the codes.

  The reference contracts the planes against the points, `∑ k, p[t, h, k] · x[n, k]`, into an array
  laid out `[t, h, n]`, swaps the last two axes, compares with zero and selects between the two
  literals. Read at an index `(t, n, h)` that is the code of point `n` against plane `h` of table
  `t`: the transposition only renames the index, and the two factors of each term commute.
-/
import proofs.«105339_g42193758716157_cont_8to1_b_654_12_alg».proof.Proof.Gen.ReferenceIdeal.Read
import proofs.«105339_g42193758716157_cont_8to1_b_654_12_alg».proof.Proof.Codes

noncomputable section

namespace Cert.Lsh

open Idealize.ShloMosaic Idealize.ShloMosaic.ValueIdx
open Cert.ReferenceIdeal Cert.ReferenceIdeal.Read

/-- The plane's row the reference's contraction reads at `(t, n, h)`, after the transposition. -/
theorem plane_row (i : S4x16384x256.Idx) (k : Fin 512) :
    lidx_main_v0 (idx_main_v1 i) k = ix3 (i 0) (i 2) k :=
  funext fun a => Fin.ext (by match a with | ⟨0, _⟩ => rfl | ⟨1, _⟩ => rfl | ⟨2, _⟩ => rfl)

/-- The point's row the reference's contraction reads at `(t, n, h)`, after the transposition. -/
theorem point_row (i : S4x16384x256.Idx) (k : Fin 512) :
    ridx_main_v0 (idx_main_v1 i) k = ix2 (i 1) k :=
  funext fun a => Fin.ext (by match a with | ⟨0, _⟩ => rfl | ⟨1, _⟩ => rfl)

/-- The reference's result is the array of codes. -/
theorem reference_codes (x : Vec Ideal S16384x512 .f32) (p : Vec Ideal S4x256x512 .f32) :
    val_main_v4 (F := Ideal) x p = codes x p := by
  funext i
  rw [val_main_v4_apply, val_main_v3_apply, val_main_v1_apply, val_main_v0_apply, val_main_v2_apply,
    val_main_cst_apply, val_main_call0_v0_apply, val_main_cst_0_apply, val_main_call0_v1_apply,
    val_main_cst_1_apply]
  refine congrArg side (Finset.sum_congr rfl fun k _ => ?_)
  rw [plane_row, point_row]
  exact mul_comm _ _

end Cert.Lsh

end
-- ==== Proof.lean ====
/-
  Random-hyperplane hashing: the kernel and its reference compute the same codes.

  Both programs take points `x : [16384, 512]` and four tables of planes `p : [4, 256, 512]` and return
  codes `[4, 16384, 256]`: the code of point `n` against plane `h` of table `t` is `0` when the inner
  product `∑ k, x[n, k] · p[t, h, k]` is negative and `1` otherwise (Proof/Codes.lean).

  The kernel walks a 4 × 4 grid: a step multiplies a block of 4096 points by one table's planes, takes
  the side of every entry and writes the tile back as one block of the output; the 16 blocks tile the
  output, so it ends holding the codes (Proof/Tile.lean for one step, Proof/KernelCodes.lean for the
  array). The reference contracts planes against points, swaps two axes, compares and selects; read at
  an index that is the same code, the transposition renaming the index and the two factors of each
  term commuting (Proof/RefCodes.lean). Commutativity of the product holds on all extended reals, so
  the equality needs nothing of the inputs' finiteness.

  Both kernels' frames are the generated ones; the reference's frame is its generated run with the
  result dropped. The idealization rewrote no operation, so there is nothing to preserve.
-/
import proofs.«105339_g42193758716157_cont_8to1_b_654_12_alg».proof.Defs
import proofs.«105339_g42193758716157_cont_8to1_b_654_12_alg».proof.Proof.Gen.Kernel
import proofs.«105339_g42193758716157_cont_8to1_b_654_12_alg».proof.Proof.Gen.Kernel.Skeleton
import proofs.«105339_g42193758716157_cont_8to1_b_654_12_alg».proof.Proof.Gen.Kernel.Launch
import proofs.«105339_g42193758716157_cont_8to1_b_654_12_alg».proof.Proof.Gen.Kernel.Points
import proofs.«105339_g42193758716157_cont_8to1_b_654_12_alg».proof.Proof.Gen.Kernel.Frame
import proofs.«105339_g42193758716157_cont_8to1_b_654_12_alg».proof.Proof.Gen.KernelIdeal
import proofs.«105339_g42193758716157_cont_8to1_b_654_12_alg».proof.Proof.Gen.KernelIdeal.Skeleton
import proofs.«105339_g42193758716157_cont_8to1_b_654_12_alg».proof.Proof.Gen.KernelIdeal.Launch
import proofs.«105339_g42193758716157_cont_8to1_b_654_12_alg».proof.Proof.Gen.KernelIdeal.Points
import proofs.«105339_g42193758716157_cont_8to1_b_654_12_alg».proof.Proof.Gen.KernelIdeal.Frame
import proofs.«105339_g42193758716157_cont_8to1_b_654_12_alg».proof.Proof.Gen.ReferenceIdeal
import proofs.«105339_g42193758716157_cont_8to1_b_654_12_alg».proof.Proof.Gen.Pre_finite_inputs
import proofs.«105339_g42193758716157_cont_8to1_b_654_12_alg».proof.Proof.Gen.KernelIdeal.Value
import proofs.«105339_g42193758716157_cont_8to1_b_654_12_alg».proof.Proof.Gen.ReferenceIdeal.Run
import proofs.«105339_g42193758716157_cont_8to1_b_654_12_alg».proof.Proof.Gen.ReferenceIdeal.Read
import proofs.«105339_g42193758716157_cont_8to1_b_654_12_alg».proof.Proof.KernelCodes
import proofs.«105339_g42193758716157_cont_8to1_b_654_12_alg».proof.Proof.RefCodes
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the points and the planes, the kernel's output and the reference's
    result are both the array of codes of those arguments. -/
theorem algebraic : Cert.algebraic_KernelIdeal_ReferenceIdeal := by
  intro m ρ m' ρ' _ hagree
  refine ⟨_, Cert.Lsh.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v4_eq _ _).trans (Cert.Lsh.reference_codes _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
